-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x512 : Shape := ⟨2, ![10000, 512]⟩
abbrev S512x512 : Shape := ⟨2, ![512, 512]⟩
abbrev S512 : Shape := ⟨1, ![512]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x512 : S_.BroadcastsInDim S10000x512 (![] : Fin 0 → Fin S10000x512.rank)
  reducesTo_S10000x512_S_d0_1 : S10000x512.ReducesTo [0, 1] S_
  bcast_S_S512x512 : S_.BroadcastsInDim S512x512 (![] : Fin 0 → Fin S512x512.rank)
  reducesTo_S512x512_S_d0_1 : S512x512.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  main_v18

def fn {F : FTy → Type} [FloatOps F] (main_arg0 : FVec F S10000x10000 .f32) (main_arg1 : FVec F S10000x512 .f32) (main_arg2 : FVec F S512x512 .f32) (main_arg3 : FVec F S512 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x512 .f32 := Host.absf main_arg1
  let main_cst_0 : FVec F S_ .f32 := constant S_ .f32 0x7F800000#32
  let main_v5 : FVec F S10000x512 .f32 := broadcastInDim S10000x512 ![] bcast_S_S10000x512 main_cst_0
  let main_v6 : IVec S10000x512 1 := cmpf .olt main_v4 main_v5
  let main_c_1 : IVec S_ 1 := constantI S_ 1 1#1
  let main_v7 : IVec S_ 1 := (fun x v => Host.reduce IntOp.andi x v reducesTo_S10000x512_S_d0_1 h_S_) main_v6 main_c_1
  let main_v8 : IVec S_ 1 := andi main_v3 main_v7
  let main_v9 : FVec F S512x512 .f32 := Host.absf main_arg2
  let main_cst_2 : FVec F S_ .f32 := constant S_ .f32 0x7F800000#32
  let main_v10 : FVec F S512x512 .f32 := broadcastInDim S512x512 ![] bcast_S_S512x512 main_cst_2
  let main_v11 : IVec S512x512 1 := cmpf .olt main_v9 main_v10
  let main_c_3 : IVec S_ 1 := constantI S_ 1 1#1
  let main_v12 : IVec S_ 1 := (fun x v => Host.reduce IntOp.andi x v reducesTo_S512x512_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_v13 main_v16
-- ==== Kernel.lean ====
abbrev S10000x10000 : Shape := ⟨2, ![10000, 10000]⟩
abbrev S10000x512 : Shape := ⟨2, ![10000, 512]⟩
abbrev S512x512 : Shape := ⟨2, ![512, 512]⟩
abbrev S512 : Shape := ⟨1, ![512]⟩
abbrev S1x512 : Shape := ⟨2, ![1, 512]⟩
abbrev S1000x512 : Shape := ⟨2, ![1000, 512]⟩
abbrev S400x10000 : Shape := ⟨2, ![400, 10000]⟩
abbrev S400x512 : Shape := ⟨2, ![400, 512]⟩

abbrev nBuf : Space → Nat
  | .hbm => 8
  | .vmem => 11
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S512x512, .f32⟩
  | .hbm, ⟨3, _⟩ => ⟨S512, .f32⟩
  | .hbm, ⟨4, _⟩ => ⟨S512x512, .bf16⟩
  | .hbm, ⟨5, _⟩ => ⟨S1x512, .f32⟩
  | .hbm, ⟨6, _⟩ => ⟨S10000x512, .bf16⟩
  | .hbm, ⟨7, _⟩ => ⟨S10000x512, .f32⟩
  | .local _ .vmem, ⟨0, _⟩ => ⟨S1000x512, .f32⟩
  | .local _ .vmem, ⟨1, _⟩ => ⟨S1000x512, .f32⟩
  | .local _ .vmem, ⟨2, _⟩ => ⟨S512x512, .bf16⟩
  | .local _ .vmem, ⟨3, _⟩ => ⟨S1000x512, .bf16⟩
  | .local _ .vmem, ⟨4, _⟩ => ⟨S1000x512, .bf16⟩
  | .local _ .vmem, ⟨5, _⟩ => ⟨S400x10000, .f32⟩
  | .local _ .vmem, ⟨6, _⟩ => ⟨S400x10000, .f32⟩
  | .local _ .vmem, ⟨7, _⟩ => ⟨S10000x512, .bf16⟩
  | .local _ .vmem, ⟨8, _⟩ => ⟨S1x512, .f32⟩
  | .local _ .vmem, ⟨9, _⟩ => ⟨S400x512, .f32⟩
  | .local _ .vmem, ⟨10, _⟩ => ⟨S400x512, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_v2 : Ref sig .tc := ⟨.hbm, 6, rfl⟩
abbrev main_v0 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1000x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S400x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bitsLt_bf16_f32 : FTy.bits .bf16 < FTy.bits .f32
  shapeCasts_S512_S1x512 : S512.ShapeCasts S1x512
  inb_S1000x512_S1000x512_0_0 : ∀ a, (![0, 0] : Fin 2 → Nat) a + S1000x512.size a ≤ S1000x512.size a
  h_S1000x512 : 0 < S1000x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  packedbf16_S1000x512_S1000x512_0_0 : (Rect.unit (s := S1000x512) ![0, 0] S1000x512.size inb_S1000x512_S1000x512_0_0).PackedRows (EltTy.packing .bf16)
  inb_S400x10000_S400x10000_0_0 : ∀ a, (![0, 0] : Fin 2 → Nat) a + S400x10000.size a ≤ S400x10000.size a
  h_S400x10000 : 0 < S400x10000.numel
  inb_S10000x512_S10000x512_0_0 : ∀ a, (![0, 0] : Fin 2 → Nat) a + S10000x512.size a ≤ S10000x512.size a
  h_S10000x512 : 0 < S10000x512.numel
  shapeCasts_S10000x512_S10000x512 : S10000x512.ShapeCasts S10000x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S400x512 : S1x512.Broadcasts S400x512
  inb_S400x512_S400x512_0_0 : ∀ a, (![0, 0] : Fin 2 → Nat) a + S400x512.size a ≤ S400x512.size a
  h_S400x512 : 0 < S400x512.numel
  dot_S1000x512_S512x512_S1000x512_1_0_0_1_n_n_wf : DotDims.WF S1000x512 S512x512 S1000x512 [1] [0] [0] [1] [] []
  dot_S400x10000_S10000x512_S400x512_1_0_0_1_n_n_wf : DotDims.WF S400x10000 S10000x512 S400x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1000x512.size a ≤ S10000x512.size a
  hwx0_0 : ∀ i : grid0.Coords, EltTy.bits .f32 = 32 ∨ (Rect.block (s := S10000x512) S1000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S512x512.size a
  hwx0_1 : ∀ i : grid0.Coords, EltTy.bits .bf16 = 32 ∨ (Rect.block (s := S512x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1000x512.size a ≤ S10000x512.size a
  hwx0_2 : ∀ i : grid0.Coords, EltTy.bits .bf16 = 32 ∨ (Rect.block (s := S10000x512) S1000x512.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x512.size a ≤ S10000x512.size a
  hwx1_1 : ∀ i : grid1.Coords, EltTy.bits .bf16 = 32 ∨ (Rect.block (s := S10000x512) S10000x512.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S400x512.size a ≤ S10000x512.size a
  hwx1_3 : ∀ i : grid1.Coords, EltTy.bits .f32 = 32 ∨ (Rect.block (s := S10000x512) S400x512.size (cc1_transform_3 i) (hinb1_3 i)).WholeWords (EltTy.packing .f32)

variable [Facts₀]

def dot_S1000x512_S512x512_S1000x512_1_0_0_1_n_n : DotDims S1000x512 S512x512 S1000x512 where
  lhsContracting := [1]
  rhsContracting := [0]
  lhsNonContracting := [0]
  rhsNonContracting := [1]
  lhsBatch := []
  rhsBatch := []
  wf := dot_S1000x512_S512x512_S1000x512_1_0_0_1_n_n_wf
def dot_S400x10000_S10000x512_S400x512_1_0_0_1_n_n : DotDims S400x10000 S10000x512 S400x512 where
  lhsContracting := [1]
  rhsContracting := [0]
  lhsNonContracting := [0]
  rhsNonContracting := [1]
  lhsBatch := []
  rhsBatch := []
  wf := dot_S400x10000_S10000x512_S400x512_1_0_0_1_n_n_wf

abbrev win0_0 : Pipeline.Window sig grid0 :=
  Pipeline.Window.ofSpec (Memref.whole main_arg1) S1000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v0) S512x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S1000x512.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_call0_v2) S10000x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_call0_v1) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v0) S400x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S10000x10000 : Shape := ⟨2, ![10000, 10000]⟩
abbrev S10000x512 : Shape := ⟨2, ![10000, 512]⟩
abbrev S512x512 : Shape := ⟨2, ![512, 512]⟩
abbrev S512 : Shape := ⟨1, ![512]⟩
abbrev S1x512 : Shape := ⟨2, ![1, 512]⟩

abbrev nBuf : Space → Nat
  | .hbm => 9
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x512, .f32⟩
  | .hbm, ⟨2, _⟩ => ⟨S512x512, .f32⟩
  | .hbm, ⟨3, _⟩ => ⟨S512, .f32⟩
  | .hbm, ⟨4, _⟩ => ⟨S10000x512, .f32⟩
  | .hbm, ⟨5, _⟩ => ⟨S10000x512, .f32⟩
  | .hbm, ⟨6, _⟩ => ⟨S1x512, .f32⟩
  | .hbm, ⟨7, _⟩ => ⟨S10000x512, .f32⟩
  | .hbm, ⟨8, _⟩ => ⟨S10000x512, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]

class Facts₀ : Prop where
  bcast_S512_S1x512_1 : S512.BroadcastsInDim S1x512 (![1] : Fin 1 → Fin S1x512.rank)
  bcast_S1x512_S10000x512_0_1 : S1x512.BroadcastsInDim S10000x512 (![0, 1] : Fin 2 → Fin S10000x512.rank)
  dot_S10000x512_S512x512_S10000x512_1_0_0_1_n_n_wf : DotDims.WF S10000x512 S512x512 S10000x512 [1] [0] [0] [1] [] []
  dot_S10000x10000_S10000x512_S10000x512_1_0_0_1_n_n_wf : DotDims.WF S10000x10000 S10000x512 S10000x512 [1] [0] [0] [1] [] []

variable [Facts₀]

def dot_S10000x512_S512x512_S10000x512_1_0_0_1_n_n : DotDims S10000x512 S512x512 S10000x512 where
  lhsContracting := [1]
  rhsContracting := [0]
  lhsNonContracting := [0]
  rhsNonContracting := [1]
  lhsBatch := []
  rhsBatch := []
  wf := dot_S10000x512_S512x512_S10000x512_1_0_0_1_n_n_wf
def dot_S10000x10000_S10000x512_S10000x512_1_0_0_1_n_n : DotDims S10000x10000 S10000x512 S10000x512 where
  lhsContracting := [1]
  rhsContracting := [0]
  lhsNonContracting := [0]
  rhsNonContracting := [1]
  lhsBatch := []
  rhsBatch := []
  wf := dot_S10000x10000_S10000x512_S10000x512_1_0_0_1_n_n_wf

class Facts : Prop extends Facts₀ where

variable [Facts]
-- ==== Proof.Spec.lean ====
/-
  The graph-convolution layer as one function of its four arrays, index by index, over the extended reals.

  support(k, n) = Σ_j x(k, j) · w(j, n)          (the feature transform, 512 terms)
  layer(i, n)   = Σ_k adj(i, k) · support(k, n) + b(n)     (the aggregation over the 10000 nodes, then the bias)

  Both programs group the two products the same way (the adjacency times the transformed features), so no law beyond
  reading each product as its finite sum is needed, and nothing is asked of the inputs.
-/
import Idealize.ShloMosaic.PureOps.Ideal.Laws
import Idealize.ShloMosaic.Lib.ValueIdx

noncomputable section

open scoped BigOperators

namespace Cert.Gcn

open Idealize.ShloMosaic Idealize.ShloMosaic.ValueIdx

/-- The transformed features: row k of x against column n of w. -/
def support (x : (⟨2, ![10000, 512]⟩ : Shape).Idx → EReal) (w : (⟨2, ![512, 512]⟩ : Shape).Idx → EReal) :
    (⟨2, ![10000, 512]⟩ : Shape).Idx → EReal :=
  fun j => ∑ k : Fin 512, x (ix2 (j 0) k) * w (ix2 k (j 1))

/-- The aggregation of ANY feature array `s` with a one-row bias `b2`: row i of adj against column n of s, plus b2(0, n). -/
def aggregate (adj : (⟨2, ![10000, 10000]⟩ : Shape).Idx → EReal) (s : (⟨2, ![10000, 512]⟩ : Shape).Idx → EReal)
    (b2 : (⟨2, ![1, 512]⟩ : Shape).Idx → EReal) : (⟨2, ![10000, 512]⟩ : Shape).Idx → EReal :=
  fun j => (∑ k : Fin 10000, adj (ix2 (j 0) k) * s (ix2 k (j 1))) + b2 (ix2 (0 : Fin 1) (j 1))

/-- The whole layer. -/
def layer (adj : (⟨2, ![10000, 10000]⟩ : Shape).Idx → EReal) (x : (⟨2, ![10000, 512]⟩ : Shape).Idx → EReal)
    (w : (⟨2, ![512, 512]⟩ : Shape).Idx → EReal) (b : (⟨1, ![512]⟩ : Shape).Idx → EReal) :
    (⟨2, ![10000, 512]⟩ : Shape).Idx → EReal :=
  fun j => (∑ k : Fin 10000, adj (ix2 (j 0) k) * support x w (ix2 k (j 1))) + b (ix1 (j 1))

/-- The layer is the aggregation of the transformed features with the bias laid out as one row. -/
theorem layer_eq_aggregate (adj : (⟨2, ![10000, 10000]⟩ : Shape).Idx → EReal) (x : (⟨2, ![10000, 512]⟩ : Shape).Idx → EReal)
    (w : (⟨2, ![512, 512]⟩ : Shape).Idx → EReal) (b : (⟨1, ![512]⟩ : Shape).Idx → EReal)
    (b2 : (⟨2, ![1, 512]⟩ : Shape).Idx → EReal) (hb : ∀ q : Fin 512, b2 (ix2 (0 : Fin 1) q) = b (ix1 q)) :
    aggregate adj (support x w) b2 = layer adj x w b := by
  funext j
  exact congrArg (fun z => (∑ k : Fin 10000, adj (ix2 (j 0) k) * support x w (ix2 k (j 1))) + z) (hb (j 1))

end Cert.Gcn

end
-- ==== Proof.LibPlainDot.lean ====
/-
  A plain two-dimensional matrix product read at an index.

  For the dimension numbers "rows × contraction times contraction × columns" (no batch axis) the operand indices at the
  output index (p, q) and contraction index k are (p, k) and (k, q); so at the extended reals a `tpu.matmul` into the
  zero accumulator and a host `dot_general` are both  Σ_k l(p, k) · r(k, q),  a finite sum over the contracted axis.
  A transposed operand reads its source at the swapped index.
-/
import Idealize.ShloMosaic.PureOps.Ideal.Laws
import Idealize.ShloMosaic.Lib.ValueIdx
import Idealize.ShloMosaic.Lib.Pipeline.Value

noncomputable section

namespace Cert.LibPlainDot

open Idealize.ShloMosaic Idealize.ShloMosaic.ValueIdx

variable {M K N : Nat}

/-- The contraction shape of a plain product has one axis. -/
theorem plain_contr_rank : (DotDims.plain M K N).contr.rank = 1 := rfl
/-- Its extent is the shared dimension. -/
theorem plain_contr_size : (DotDims.plain M K N).contr.size ⟨0, by rw [plain_contr_rank]; exact Nat.one_pos⟩ = K := rfl

/-- The left operand's index at output (p, q) and contraction coordinate k is (p, k). -/
theorem plain_lhsIdx (j : (⟨2, ![M, N]⟩ : Shape).Idx) (k : Fin K) :
    (DotDims.plain M K N).lhsIdx j ((contrEquiv1 (DotDims.plain M K N) K plain_contr_rank plain_contr_size).symm k) = ix2 (j 0) k := by
  funext a
  refine Fin.ext ?_
  match a with
  | ⟨0, _⟩ => rfl
  | ⟨1, _⟩ =>
    exact ((DotDims.plain M K N).lhsIdx_val_of_single (cl := 1) rfl j _).trans
      (contrEquiv1_symm_val (DotDims.plain M K N) K plain_contr_rank plain_contr_size k)

/-- The right operand's index is (k, q). -/
theorem plain_rhsIdx (j : (⟨2, ![M, N]⟩ : Shape).Idx) (k : Fin K) :
    (DotDims.plain M K N).rhsIdx j ((contrEquiv1 (DotDims.plain M K N) K plain_contr_rank plain_contr_size).symm k) = ix2 k (j 1) := by
  funext a
  refine Fin.ext ?_
  match a with
  | ⟨0, _⟩ =>
    exact ((DotDims.plain M K N).rhsIdx_val_of_single (cr := 0) rfl j _).trans
      (contrEquiv1_symm_val (DotDims.plain M K N) K plain_contr_rank plain_contr_size k)
  | ⟨1, _⟩ => rfl

/-- The contraction sum of a plain product over its one coordinate. -/
theorem plain_sum (l : (⟨2, ![M, K]⟩ : Shape).Idx → EReal) (r : (⟨2, ![K, N]⟩ : Shape).Idx → EReal) (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K plain_contr_rank plain_contr_size).symm]
  exact Finset.sum_congr rfl fun k _ =>
    congrArg₂ (· * ·) (congrArg l (plain_lhsIdx j k)) (congrArg r (plain_rhsIdx j k))

/-- A `tpu.matmul` with plain dimension numbers into the zero accumulator, at an index, whatever the operands' formats. -/
theorem matmul_plain_zero {φ₁ φ₂ : FTy} (prec : Option ContractPrecision) (l : FVec Ideal ⟨2, ![M, K]⟩ φ₁) (r : FVec Ideal ⟨2, ![K, N]⟩ φ₂)
    (j : (⟨2, ![M, N]⟩ : Shape).Idx) :
    FloatOps.matmul (DotDims.plain M K N) prec l r (constant ⟨2, ![M, N]⟩ .f32 0x00000000#32) j
      = ∑ k : Fin K, (l (ix2 (j 0) k) : EReal) * (r (ix2 k (j 1)) : EReal) := by
  rw [Ideal.matmul_constant_zero_apply]
  exact plain_sum l r j

/-- A host `dot_general` with plain dimension numbers, at an index. -/
theorem dotGeneral_plain {φ₁ φ₂ : FTy} (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral (DotDims.plain M K N) prec sched l r j
      = ∑ k : Fin K, (l (ix2 (j 0) k) : EReal) * (r (ix2 k (j 1)) : EReal) := by
  rw [Ideal.dotGeneral_apply]
  exact plain_sum l r j

/-! ## Layout reads the dense layers need -/

/-- A two-dimensional transpose reads its source at the swapped index. -/
theorem transpose2_apply {α : Type} {A B : Nat} (x : (⟨2, ![A, B]⟩ : Shape).Idx → α)
    (h : (⟨2, ![A, B]⟩ : Shape).Transposes [1, 0] ⟨2, ![B, A]⟩) (b : Fin B) (a : Fin A) :
    transpose ⟨2, ![B, A]⟩ [1, 0] x h (ix2 b a) = x (ix2 a b) :=
  transpose_apply [1, 0] x h (ix2 b a) (ix2 a b) fun c => by
    match c with
    | ⟨0, _⟩ => rfl
    | ⟨1, _⟩ => rfl

/-- A vector recast as a one-row matrix and broadcast down the rows (a kernel's bias) reads, at (p, q), the vector at q. -/
theorem rowBroadcastTo_apply {α : Type} {R C : Nat} (v : (⟨1, ![C]⟩ : Shape).Idx → α)
    (h1 : (⟨1, ![C]⟩ : Shape).ShapeCasts ⟨2, ![1, C]⟩) (h2 : (⟨2, ![1, C]⟩ : Shape).Broadcasts ⟨2, ![R, C]⟩)
    (p : Fin R) (q : Fin C) :
    broadcastTo ⟨2, ![R, C]⟩ (shapeCast ⟨2, ![1, C]⟩ v h1) h2 (ix2 p q) = v (ix1 q) := by
  rw [broadcastTo_apply (shapeCast ⟨2, ![1, C]⟩ v h1) h2 (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact shapeCast_apply v h1 (ix2 (0 : Fin 1) q) (ix1 q) (by
    rw [Shape.rowMajor_val_one, Shape.rowMajor_val_two]
    show q.val = (0 : Nat) * C + q.val
    omega)

/-- The host's form of the same bias: a vector laid along the second axis by two `broadcast_in_dim`s reads, at (p, q), the vector at q. -/
theorem rowBroadcastInDim_apply {α : Type} {R C : Nat} (v : (⟨1, ![C]⟩ : Shape).Idx → α)
    (h1 : (⟨1, ![C]⟩ : Shape).BroadcastsInDim ⟨2, ![1, C]⟩ ![1]) (h2 : (⟨2, ![1, C]⟩ : Shape).BroadcastsInDim ⟨2, ![R, C]⟩ ![0, 1])
    (p : Fin R) (q : Fin C) :
    broadcastInDim ⟨2, ![R, C]⟩ ![0, 1] h2 (broadcastInDim ⟨2, ![1, C]⟩ ![1] h1 v) (ix2 p q) = v (ix1 q) := by
  rw [broadcastInDim_apply ![0, 1] h2 _ (ix2 p q) (ix2 (0 : Fin 1) q) (fun a => by
    match a with
    | ⟨0, _⟩ => show (0 : Nat) = if (1 : Nat) = 1 then 0 else _; rw [if_pos rfl]
    | ⟨1, _⟩ =>
      show q.val = if C = 1 then 0 else q.val
      split
      · have := q.isLt; omega
      · rfl)]
  exact broadcastInDim_apply ![1] h1 v (ix2 (0 : Fin 1) q) (ix1 q) (fun a => by
    match a with
    | ⟨0, _⟩ =>
      show q.val = if C = 1 then 0 else q.val
      split
      · have := q.isLt; omega
      · rfl)

end Cert.LibPlainDot

end
-- ==== Proof.Region0Value.lean ====
/-
  Region 0 (the feature transform), read as a value at the extended reals.

  At grid point t the body multiplies rows 1000·t … 1000·t + 999 of x by the whole of w (both changes of float format
  are the identity here), so what point t writes back is block t of `support x w`; the ten blocks tile the 10000 rows,
  hence the region leaves its output array at `support` of the two arrays it found on entry.
-/
import proofs.«103076_g20366734917714_cont_sun_m_391_5_alg».proof.Proof.Gen.KernelIdeal.Frame
import proofs.«103076_g20366734917714_cont_sun_m_391_5_alg».proof.Proof.Spec
import proofs.«103076_g20366734917714_cont_sun_m_391_5_alg».proof.Proof.LibPlainDot
import Idealize.ShloMosaic.Lib.Pipeline.Value

set_option maxRecDepth 16384

noncomputable section

open scoped BigOperators

namespace Cert.KernelIdeal.Region0

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's one payload at an index: row `j 0` of the loaded x-block against column `j 1` of the loaded w. -/
theorem pay_apply (x0 : Vec Ideal S1000x512 .f32) (x1 : Vec Ideal S512x512 .bf16) (j : S1000x512.Idx) :
    k0_pay1 (F := Ideal) x0 x1 j = ∑ k : Fin 512, (x0 (ix2 (j 0) k) : EReal) * (x1 (ix2 k (j 1)) : EReal) := by
  unfold k0_pay1
  show (FloatOps.matmul (F := Ideal) (φ₁ := .f32) (φ₂ := .bf16) (DotDims.plain 1000 512 512) none (x0 : FVec Ideal S1000x512 .f32)
      (shapeCast S512x512 (x1 : FVec Ideal S512x512 .bf16) shapeCasts_S512x512_S512x512)
      (constant ⟨2, ![1000, 512]⟩ .f32 0x00000000#32) j : EReal) = _
  rw [shapeCast_self]
  exact Cert.LibPlainDot.matmul_plain_zero none x0 x1 j

/-- The printed index maps, decided over the ten points: x's and the output's blocks move down the rows with the point,
    w's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the transformed features of the arrays the region found: an entry of
    the x-block is the array's entry 1000·t rows further down, the w-block is the whole of w. -/
theorem flushed_eq (c : Dev nD) (t : Fin cfg0.N) :
    (dat0 V c).flushed 2 t
      = ((cfg0.win 2).blk t).view.read (Elt Ideal) (Cert.Gcn.support (V c main_arg1) (V c main_call0_v0)) := by
  show (cfg0.win 2).cut (grid0.coords t) ((dat0 V c).after 2 t) = _
  rw [after0_2]
  unfold out0_2
  rw [View.canon_unit_zero hz]
  simp only [View.ld_unit_zero (S := S1000x512) hz, View.ld_unit_zero (S := S512x512) hz]
  obtain ⟨e0, e1, e2, e3, e4, e5⟩ := idx_facts t
  funext j
  refine (pay_apply (iblk0 V c 0 t) (iblk0 V c 1 t) ((cfg0.win 2).xinj (grid0.coords t) j)).trans ?_
  rw [View.read_apply]
  unfold Cert.Gcn.support
  refine Finset.sum_congr rfl fun k _ => congrArg₂ (fun a b : EReal => a * b) ?_ ?_
  · refine congrArg (V c main_arg1) (funext fun a => Fin.ext ?_)
    match a with
    | ⟨0, _⟩ =>
      show win0_0.index t (0 : Fin 2) * 1000 + 1 * (j 0).val = win0_2.index t (0 : Fin 2) * 1000 + 1 * (j 0).val
      omega
    | ⟨1, _⟩ =>
      show win0_0.index t (1 : Fin 2) * 512 + 1 * k.val = k.val
      omega
  · refine congrArg (V c main_call0_v0) (funext fun a => Fin.ext ?_)
    match a with
    | ⟨0, _⟩ =>
      show win0_1.index t (0 : Fin 2) * 512 + 1 * k.val = k.val
      omega
    | ⟨1, _⟩ =>
      show win0_1.index t (1 : Fin 2) * 512 + 1 * (j 1).val = win0_2.index t (1 : Fin 2) * 512 + 1 * (j 1).val
      omega

/-- An index of the output array is in point `t`'s block iff each coordinate is in the block's range on its axis. -/
theorem mem_blk (t : Fin cfg0.N) (i : S10000x512.Idx) :
    i ∈ ((cfg0.win 2).blk t).view.set ↔ ∀ a : Fin 2, win0_2.index t a * S1000x512.size a ≤ (i a).val
      ∧ (i a).val < win0_2.index t a * S1000x512.size a + S1000x512.size a := by
  show i ∈ ((View.whole main_call0_v2).slice (win0_2.rect t)).set ↔ _
  rw [View.set_slice_whole, Rect.mem_set_unit]
  exact Iff.rfl

/-- Every row lies in the block of the point "row div 1000". -/
theorem cover (i : S10000x512.Idx) :
    ∃ t : Fin cfg0.N, (cfg0.win 2).flush t = true ∧ i ∈ ((cfg0.win 2).blk t).view.set := by
  have hi0 : (i 0).val < 10000 := (i 0).isLt
  have hi1 : (i 1).val < 512 := (i 1).isLt
  obtain ⟨t, ht⟩ : ∃ t : Fin cfg0.N, t.val = (i 0).val / 1000 :=
    ⟨⟨(i 0).val / 1000, by show (i 0).val / 1000 < grid0.N; rw [N_0]; omega⟩, rfl⟩
  obtain ⟨-, -, -, -, e4, e5⟩ := idx_facts t
  refine ⟨t, flush0_2 t, ?_⟩
  rw [mem_blk]
  intro a
  match a with
  | ⟨0, _⟩ =>
    show win0_2.index t (0 : Fin 2) * 1000 ≤ (i 0).val ∧ (i 0).val < win0_2.index t (0 : Fin 2) * 1000 + 1000
    omega
  | ⟨1, _⟩ =>
    show win0_2.index t (1 : Fin 2) * 512 ≤ (i 1).val ∧ (i 1).val < win0_2.index t (1 : Fin 2) * 512 + 512
    omega

/-- The region's output array after its ten points: the transformed features of the two arrays it read. -/
theorem final (c : Dev nD) :
    (dat0 V c).arrAt 2 cfg0.N = Cert.Gcn.support (V c main_arg1) (V c main_call0_v0) :=
  (dat0 V c).arrAt_eq_of_cover 2 (Cert.Gcn.support (V c main_arg1) (V c main_call0_v0))
    (fun t _ => flushed_eq V c t) (fun i => cover i)

end Cert.KernelIdeal.Region0

end
-- ==== Proof.Region1Value.lean ====
/-
  Region 1 (the aggregation), read as a value at the extended reals.

  At grid point t the body multiplies rows 400·t … 400·t + 399 of adj by the whole feature array it finds (the change
  of float format is the identity here) and adds the one-row bias to every row, so what point t writes back is block t
  of `aggregate adj s b2`; the twenty-five blocks tile the 10000 rows, hence the region leaves its output array at
  `aggregate` of the three arrays it found on entry.
-/
import proofs.«103076_g20366734917714_cont_sun_m_391_5_alg».proof.Proof.Gen.KernelIdeal.Frame
import proofs.«103076_g20366734917714_cont_sun_m_391_5_alg».proof.Proof.Spec
import proofs.«103076_g20366734917714_cont_sun_m_391_5_alg».proof.Proof.LibPlainDot
import Idealize.ShloMosaic.Lib.Pipeline.Value

set_option maxRecDepth 16384

noncomputable section

open scoped BigOperators

namespace Cert.KernelIdeal.Region1

open Cert.KernelIdeal Cert.KernelIdeal.Gen
open Idealize.ShloMosaic Idealize.ShloMosaic.TcCoe Idealize.ShloMosaic.ValueIdx Idealize.SL.Sem
open Idealize.ShloMosaic.Pipeline (Dat)

theorem hz : (![0, 0] : Fin 2 → Nat) = fun _ => 0 := funext fun a => by fin_cases a <;> rfl

/-- The body's one payload at an index: row `j 0` of the loaded adj-block against column `j 1` of the loaded
    features, plus the bias row's entry in that column. -/
theorem pay_apply (x0 : Vec Ideal S400x10000 .f32) (x1 : Vec Ideal S10000x512 .bf16) (x2 : Vec Ideal S1x512 .f32)
    (j : S400x512.Idx) :
    k1_pay1 (F := Ideal) x0 x1 x2 j
      = (∑ k : Fin 10000, (x0 (ix2 (j 0) k) : EReal) * (x1 (ix2 k (j 1)) : EReal)) + (x2 (ix2 (0 : Fin 1) (j 1)) : EReal) := by
  unfold k1_pay1
  show (FloatOps.matmul (F := Ideal) (DotDims.plain 400 10000 512) none (x0 : FVec Ideal S400x10000 .f32)
      (shapeCast S10000x512 (x1 : FVec Ideal S10000x512 .bf16) shapeCasts_S10000x512_S10000x512)
      (constant ⟨2, ![400, 512]⟩ .f32 0x00000000#32) j : EReal)
      + (broadcastTo S400x512 (shapeCast S1x512 (x2 : FVec Ideal S1x512 .f32) shapeCasts_S1x512_S1x512) broadcasts_S1x512_S400x512 j : EReal) = _
  rw [shapeCast_self, shapeCast_self]
  refine congrArg₂ (fun a b : EReal => a + b) (Cert.LibPlainDot.matmul_plain_zero none x0 x1 j) ?_
  exact broadcastTo_apply x2 broadcasts_S1x512_S400x512 j (ix2 (0 : Fin 1) (j 1)) (fun a => by
    match a with
    | ⟨0, _⟩ => show (0 : Nat) = if (1 : Nat) = 1 then 0 else _; rw [if_pos rfl]
    | ⟨1, _⟩ => show (j 1).val = if (512 : Nat) = 1 then 0 else (j 1).val; rw [if_neg (by decide)])

/-- The printed index maps, decided over the twenty-five points: adj's and the output's blocks move down the rows with
    the point, the features' and the bias's blocks stay. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point `t` writes back is block `t` of the aggregation of the arrays the region found: an entry of the
    adj-block is the array's entry 400·t rows further down, the other two blocks are their whole arrays. -/
theorem flushed_eq (c : Dev nD) (t : Fin cfg1.N) :
    (dat1 V c).flushed 3 t
      = ((cfg1.win 3).blk t).view.read (Elt Ideal)
          (Cert.Gcn.aggregate (V c main_arg0) (V c main_call0_v2) (V c main_call0_v1)) := by
  show (cfg1.win 3).cut (grid1.coords t) ((dat1 V c).after 3 t) = _
  rw [after1_3]
  unfold out1_3
  rw [View.canon_unit_zero hz]
  simp only [View.ld_unit_zero (S := S400x10000) hz, View.ld_unit_zero (S := S10000x512) hz,
    View.ld_unit_zero (S := S1x512) hz]
  obtain ⟨e0, e1, e2, e3, e4, e5, e6, e7⟩ := idx_facts t
  funext j
  refine (pay_apply (iblk1 V c 0 t) (iblk1 V c 1 t) (iblk1 V c 2 t) ((cfg1.win 3).xinj (grid1.coords t) j)).trans ?_
  refine congrArg₂ (fun a b : EReal => a + b) (Finset.sum_congr rfl fun k _ => congrArg₂ (fun a b : EReal => a * b) ?_ ?_) ?_
  · refine congrArg (V c main_arg0) (funext fun a => Fin.ext ?_)
    match a with
    | ⟨0, _⟩ =>
      show win1_0.index t (0 : Fin 2) * 400 + 1 * (j 0).val = win1_3.index t (0 : Fin 2) * 400 + 1 * (j 0).val
      omega
    | ⟨1, _⟩ =>
      show win1_0.index t (1 : Fin 2) * 10000 + 1 * k.val = k.val
      omega
  · refine congrArg (V c main_call0_v2) (funext fun a => Fin.ext ?_)
    match a with
    | ⟨0, _⟩ =>
      show win1_1.index t (0 : Fin 2) * 10000 + 1 * k.val = k.val
      omega
    | ⟨1, _⟩ =>
      show win1_1.index t (1 : Fin 2) * 512 + 1 * (j 1).val = win1_3.index t (1 : Fin 2) * 512 + 1 * (j 1).val
      omega
  · refine congrArg (V c main_call0_v1) (funext fun a => Fin.ext ?_)
    match a with
    | ⟨0, _⟩ =>
      show win1_2.index t (0 : Fin 2) * 1 + 1 * 0 = 0
      omega
    | ⟨1, _⟩ =>
      show win1_2.index t (1 : Fin 2) * 512 + 1 * (j 1).val = win1_3.index t (1 : Fin 2) * 512 + 1 * (j 1).val
      omega

/-- An index of the output array is in point `t`'s block iff each coordinate is in the block's range on its axis. -/
theorem mem_blk (t : Fin cfg1.N) (i : S10000x512.Idx) :
    i ∈ ((cfg1.win 3).blk t).view.set ↔ ∀ a : Fin 2, win1_3.index t a * S400x512.size a ≤ (i a).val
      ∧ (i a).val < win1_3.index t a * S400x512.size a + S400x512.size a := by
  show i ∈ ((View.whole main_v0).slice (win1_3.rect t)).set ↔ _
  rw [View.set_slice_whole, Rect.mem_set_unit]
  exact Iff.rfl

/-- Every row lies in the block of the point "row div 400". -/
theorem cover (i : S10000x512.Idx) :
    ∃ t : Fin cfg1.N, (cfg1.win 3).flush t = true ∧ i ∈ ((cfg1.win 3).blk t).view.set := by
  have hi0 : (i 0).val < 10000 := (i 0).isLt
  have hi1 : (i 1).val < 512 := (i 1).isLt
  obtain ⟨t, ht⟩ : ∃ t : Fin cfg1.N, t.val = (i 0).val / 400 :=
    ⟨⟨(i 0).val / 400, by show (i 0).val / 400 < grid1.N; rw [N_1]; omega⟩, rfl⟩
  obtain ⟨-, -, -, -, -, -, e6, e7⟩ := idx_facts t
  refine ⟨t, flush1_3 t, ?_⟩
  rw [mem_blk]
  intro a
  match a with
  | ⟨0, _⟩ =>
    show win1_3.index t (0 : Fin 2) * 400 ≤ (i 0).val ∧ (i 0).val < win1_3.index t (0 : Fin 2) * 400 + 400
    omega
  | ⟨1, _⟩ =>
    show win1_3.index t (1 : Fin 2) * 512 ≤ (i 1).val ∧ (i 1).val < win1_3.index t (1 : Fin 2) * 512 + 512
    omega

/-- The region's output array after its twenty-five points: the aggregation of the three arrays it read. -/
theorem final (c : Dev nD) :
    (dat1 V c).arrAt 3 cfg1.N = Cert.Gcn.aggregate (V c main_arg0) (V c main_call0_v2) (V c main_call0_v1) :=
  (dat1 V c).arrAt_eq_of_cover 3 (Cert.Gcn.aggregate (V c main_arg0) (V c main_call0_v2) (V c main_call0_v1))
    (fun t _ => flushed_eq V c t) (fun i => cover i)

end Cert.KernelIdeal.Region1

end
-- ==== Proof.KernelValue.lean ====
/-
  The kernel program's result array as one function of its four argument arrays.

  The run's buffer contents at the boundaries are: the launch memory; after the two host operations (w's change of
  format, the identity at the extended reals, and the bias recast as one row); after region 0, whose output array is
  the transformed features of x and w; after region 1, whose output array is the aggregation of adj, those features
  and the bias row. Read back through the boundaries, the result array ends at `layer adj x w b`.
-/
import proofs.«103076_g20366734917714_cont_sun_m_391_5_alg».proof.Proof.Gen.KernelIdeal.Frame
import proofs.«103076_g20366734917714_cont_sun_m_391_5_alg».proof.Proof.Region0Value
import proofs.«103076_g20366734917714_cont_sun_m_391_5_alg».proof.Proof.Region1Value
import Idealize.ShloMosaic.Lib.StableHlo.Run

set_option maxRecDepth 16384

noncomputable section

open scoped BigOperators

namespace Cert.KernelIdeal.Whole

open Cert.KernelIdeal Cert.KernelIdeal.Gen
open Idealize.ShloMosaic Idealize.ShloMosaic.TcCoe Idealize.ShloMosaic.ValueIdx Idealize.SL.Sem
open Idealize.ShloMosaic.StableHlo

variable (m : (ℓ : Loc nD τ sig) → Buf (Elt Ideal) ℓ) (ρ : Dev nD → PrngReg)

/-! ## Region 0's entry contents -/

/-- x is as launched: neither host operation writes it. -/
theorem entry0_x (c : Dev nD) : V1 m ρ c main_arg1 = m ((c : Thread nD τ).loc main_arg1) := by
  show StableHlo.after hostOps0 (W0 m ρ c) (Proc.devRef .tc main_arg1) = _
  dsimp only [hostOps0]
  after_results

/-- The weight in its narrower format is the launched weight: the change of format is the identity. -/
theorem entry0_w (c : Dev nD) :
    (V1 m ρ c main_call0_v0 : S512x512.Idx → EReal) = m ((c : Thread nD τ).loc main_arg2) := by
  show StableHlo.after hostOps0 (W0 m ρ c) (Proc.devRef .tc main_call0_v0) = _
  dsimp only [hostOps0]
  after_results
  rfl

/-- The bias row is the launched bias recast to one row. -/
theorem entry0_b (c : Dev nD) :
    V1 m ρ c main_call0_v1 = shapeCast S1x512 (m ((c : Thread nD τ).loc main_arg3)) shapeCasts_S512_S1x512 := by
  show StableHlo.after hostOps0 (W0 m ρ c) (Proc.devRef .tc main_call0_v1) = _
  dsimp only [hostOps0]
  after_results
  rfl

/-- adj is as launched at region 0's entry. -/
theorem entry0_adj (c : Dev nD) : V1 m ρ c main_arg0 = m ((c : Thread nD τ).loc main_arg0) := by
  show StableHlo.after hostOps0 (W0 m ρ c) (Proc.devRef .tc main_arg0) = _
  dsimp only [hostOps0]
  after_results

/-! ## Region 1's entry contents -/

/-- adj is as launched: region 0 does not touch it. -/
theorem entry1_adj (c : Dev nD) : V2 m ρ c main_arg0 = m ((c : Thread nD τ).loc main_arg0) :=
  (W2_of_ne m ρ c main_arg0 (by decide)).trans (entry0_adj m ρ c)

/-- The feature array is what region 0 left: the transformed features of the launched x and w. -/
theorem entry1_s (c : Dev nD) :
    (V2 m ρ c main_call0_v2 : S10000x512.Idx → EReal)
      = Cert.Gcn.support (m ((c : Thread nD τ).loc main_arg1)) (m ((c : Thread nD τ).loc main_arg2)) := by
  refine ((W2_arr m ρ c 2).trans (Region0.final (V1 m ρ) c)).trans ?_
  exact congrArg₂ Cert.Gcn.support (entry0_x m ρ c) (entry0_w m ρ c)

/-- The bias row is still the launched bias recast to one row. -/
theorem entry1_b (c : Dev nD) :
    V2 m ρ c main_call0_v1 = shapeCast S1x512 (m ((c : Thread nD τ).loc main_arg3)) shapeCasts_S512_S1x512 :=
  (W2_of_ne m ρ c main_call0_v1 (by decide)).trans (entry0_b m ρ c)

/-- The one-row bias at column q is the bias at q. -/
theorem bias_row (b : S512.Idx → EReal) (q : Fin 512) :
    shapeCast S1x512 b shapeCasts_S512_S1x512 (ix2 (0 : Fin 1) q) = b (ix1 q) :=
  shapeCast_apply b shapeCasts_S512_S1x512 (ix2 (0 : Fin 1) q) (ix1 q) (by
    rw [Shape.rowMajor_val_one, Shape.rowMajor_val_two]
    show q.val = (0 : Nat) * 512 + q.val
    omega)

/-! ## The result -/

/-- The result array at the last boundary is the layer of the four launched arrays. -/
theorem result_eq (c : Dev nD) :
    W3 m ρ c (Proc.devRef .tc main_v0)
      = Cert.Gcn.layer (m ((c : Thread nD τ).loc main_arg0)) (m ((c : Thread nD τ).loc main_arg1))
          (m ((c : Thread nD τ).loc main_arg2)) (m ((c : Thread nD τ).loc main_arg3)) := by
  refine ((W3_arr m ρ c 3).trans (Region1.final (V2 m ρ) c)).trans ?_
  refine (congrArg₂ (fun a s => Cert.Gcn.aggregate a s (V2 m ρ c main_call0_v1)) (entry1_adj m ρ c) (entry1_s m ρ c)).trans ?_
  refine Cert.Gcn.layer_eq_aggregate _ _ _ _ _ fun q => ?_
  exact (congrFun (entry1_b m ρ c) (ix2 (0 : Fin 1) q)).trans (bias_row _ q)

end Cert.KernelIdeal.Whole

end
-- ==== Proof.RefValue.lean ====
/-
  The reference's result term is the layer: each host `dot_general` read at an index is the finite sum over its one
  contracted axis, the two `broadcast_in_dim`s lay the bias along the columns, and the closing `add` is the extended
  reals' sum at each index.
-/
import proofs.«103076_g20366734917714_cont_sun_m_391_5_alg».proof.Proof.Gen.ReferenceIdeal
import proofs.«103076_g20366734917714_cont_sun_m_391_5_alg».proof.Proof.Spec
import proofs.«103076_g20366734917714_cont_sun_m_391_5_alg».proof.Proof.LibPlainDot

noncomputable section

open scoped BigOperators

namespace Cert.ReferenceIdeal.RefValue

open Cert.ReferenceIdeal Cert.ReferenceIdeal.Gen
open Idealize.ShloMosaic Idealize.ShloMosaic.ValueIdx

/-- The reference's composed term, at any four arrays, is the layer of them. -/
theorem ref_eq (adj : FVec Ideal S10000x10000 .f32) (x : FVec Ideal S10000x512 .f32) (w : FVec Ideal S512x512 .f32)
    (b : FVec Ideal S512 .f32) :
    addf (Host.dotGeneral dot_S10000x10000_S10000x512_S10000x512_1_0_0_1_n_n none adj
        (Host.dotGeneral dot_S10000x512_S512x512_S10000x512_1_0_0_1_n_n none x w))
      (broadcastInDim S10000x512 ![0, 1] bcast_S1x512_S10000x512_0_1 (broadcastInDim S1x512 ![1] bcast_S512_S1x512_1 b))
    = Cert.Gcn.layer adj x w b := by
  funext j
  obtain ⟨p, q, rfl⟩ : ∃ (p : Fin 10000) (q : Fin 512), j = ix2 p q := ⟨j 0, j 1, eq_ix2 j⟩
  show (FloatOps.dotGeneral (DotDims.plain 10000 10000 512) none .single adj
        (FloatOps.dotGeneral (DotDims.plain 10000 512 512) none .single x w) (ix2 p q) : EReal)
      + broadcastInDim (⟨2, ![10000, 512]⟩ : Shape) ![0, 1] bcast_S1x512_S10000x512_0_1
          (broadcastInDim (⟨2, ![1, 512]⟩ : Shape) ![1] bcast_S512_S1x512_1 b) (ix2 p q)
    = (∑ k : Fin 10000, adj (ix2 p k) * Cert.Gcn.support x w (ix2 k q)) + b (ix1 q)
  rw [Cert.LibPlainDot.dotGeneral_plain, Cert.LibPlainDot.rowBroadcastInDim_apply]
  refine congrArg (· + b (ix1 q)) (Finset.sum_congr rfl fun k _ => congrArg (adj (ix2 p k) * ·) ?_)
  exact Cert.LibPlainDot.dotGeneral_plain none .single x w (ix2 k q)

end Cert.ReferenceIdeal.RefValue

end
-- ==== Proof.lean ====
/-
  The certificate: the kernel program `adj @ bf16(x @ bf16(w)) + b` in two pipelined regions against the reference
  `adj @ (x @ w) + b`, equal over the extended reals.

  Both programs compute, at (i, n),  Σ_k adj(i, k) · (Σ_j x(k, j) · w(j, n)) + b(n): the same two finite sums grouped
  the same way (`Cert.Gcn.layer`). At the extended reals a change of float format is the identity, a `tpu.matmul`
  into the zero accumulator and a host `dot_general` are both the sum over the contracted axis, and the bias reaches
  each row either as a one-row block broadcast down the rows or by two host broadcasts. No algebraic law is needed
  beyond that, and the precondition is never opened.

  The kernel's run: the launch over its segments with the result array read beside the arguments
  (`Named.run_named`), its contents read back region by region (`Whole.result_eq`). The reference's run is the
  generated one, its term read at an index (`RefValue.ref_eq`).
-/
import proofs.«103076_g20366734917714_cont_sun_m_391_5_alg».proof.Defs
import proofs.«103076_g20366734917714_cont_sun_m_391_5_alg».proof.Proof.Gen.Kernel
import proofs.«103076_g20366734917714_cont_sun_m_391_5_alg».proof.Proof.Gen.Kernel.Skeleton
import proofs.«103076_g20366734917714_cont_sun_m_391_5_alg».proof.Proof.Gen.Kernel.Launch
import proofs.«103076_g20366734917714_cont_sun_m_391_5_alg».proof.Proof.Gen.Kernel.Points
import proofs.«103076_g20366734917714_cont_sun_m_391_5_alg».proof.Proof.Gen.Kernel.Frame
import proofs.«103076_g20366734917714_cont_sun_m_391_5_alg».proof.Proof.Gen.KernelIdeal
import proofs.«103076_g20366734917714_cont_sun_m_391_5_alg».proof.Proof.Gen.KernelIdeal.Skeleton
import proofs.«103076_g20366734917714_cont_sun_m_391_5_alg».proof.Proof.Gen.KernelIdeal.Launch
import proofs.«103076_g20366734917714_cont_sun_m_391_5_alg».proof.Proof.Gen.KernelIdeal.Points
import proofs.«103076_g20366734917714_cont_sun_m_391_5_alg».proof.Proof.Gen.KernelIdeal.Frame
import proofs.«103076_g20366734917714_cont_sun_m_391_5_alg».proof.Proof.Gen.ReferenceIdeal
import proofs.«103076_g20366734917714_cont_sun_m_391_5_alg».proof.Proof.Gen.Pre_finite_inputs
import proofs.«103076_g20366734917714_cont_sun_m_391_5_alg».proof.Proof.Gen.ReferenceIdeal.Run
import proofs.«103076_g20366734917714_cont_sun_m_391_5_alg».proof.Proof.KernelRun
import proofs.«103076_g20366734917714_cont_sun_m_391_5_alg».proof.Proof.KernelValue
import proofs.«103076_g20366734917714_cont_sun_m_391_5_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealized kernel is the printed kernel read at the extended reals. -/
theorem preserves : Cert.preserves_Kernel_KernelIdeal := trivial

/-- Both programs end with the result array at the layer of the (agreeing) argument arrays. -/
theorem algebraic : Cert.algebraic_KernelIdeal_ReferenceIdeal := by
  intro m ρ m' ρ' _ hagree
  refine ⟨fun c => Cert.Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · exact (θ_run Cert.KernelIdeal.defs _ _).mono
      (fun r h c => ⟨(h c).1.trans (Cert.KernelIdeal.Whole.result_eq m ρ c), (h c).2⟩)
      (Cert.KernelIdeal.Named.run_named m ρ)
  · refine (θ_run Cert.ReferenceIdeal.defs _ _).mono (fun r h c => ⟨(h c).1.trans ?_, (h c).2⟩)
      (Cert.ReferenceIdeal.Value.run (F := Ideal) m' ρ')
    rw [(hagree c).1, (hagree c).2.1, (hagree c).2.2.1, (hagree c).2.2.2]
    exact Cert.ReferenceIdeal.RefValue.ref_eq _ _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
